-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_inv_sigma" .f32 0xC61C4000#32 ((-137438953472 / 13743895 : ℝ) : EReal)
  ∧ IdealRules.named_const.Statement Cert.KernelIdeal.κ "inv_99" .f32 0x3C257EB5#32 ((1 / 99 : ℝ) : EReal)
  ∧ IdealRules.named_const.Statement Cert.KernelIdeal.κ "inv_gamma" .f32 0x461C4000#32 ((137438953472 / 13743895 : ℝ) : EReal)
  ∧ IdealRules.named_const.Statement Cert.KernelIdeal.κ "inv_gamma" .f32 0x461C4000#32 ((137438953472 / 13743895 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x50 : Shape := ⟨4, ![8, 256, 256, 50]⟩
abbrev S_ : Shape := ⟨0, ![]⟩

class Facts : Prop where
  bcast_S_S8x256x256x50 : S_.BroadcastsInDim S8x256x256x50 (![] : Fin 0 → Fin S8x256x256x50.rank)
  reducesTo_S8x256x256x50_S_d0_1_2_3 : S8x256x256x50.ReducesTo [0, 1, 2, 3] S_
  h_S_ : 0 < S_.numel

variable [Facts]

def fn {F : FTy → Type} [FloatOps F] (main_arg0 : FVec F S8x256x256x50 .f32) (main_arg1 : FVec F S8x256x256x50 .f32) (main_arg2 : IVec S8x256x256x50 32) : IVec S_ 1 :=
  let main_v0 : FVec F S8x256x256x50 .f32 := Host.absf main_arg0
  let main_cst : FVec F S_ .f32 := constant S_ .f32 0x7F800000#32
  let main_v1 : FVec F S8x256x256x50 .f32 := broadcastInDim S8x256x256x50 ![] bcast_S_S8x256x256x50 main_cst
  let main_v2 : IVec S8x256x256x50 1 := cmpf .olt main_v0 main_v1
  let main_c : IVec S_ 1 := constantI S_ 1 1#1
  let main_v3 : IVec S_ 1 := (fun x v => Host.reduce IntOp.andi x v reducesTo_S8x256x256x50_S_d0_1_2_3 h_S_) main_v2 main_c
  let main_v4 : FVec F S8x256x256x50 .f32 := Host.absf main_arg1
  let main_cst_0 : FVec F S_ .f32 := constant S_ .f32 0x7F800000#32
  let main_v5 : FVec F S8x256x256x50 .f32 := broadcastInDim S8x256x256x50 ![] bcast_S_S8x256x256x50 main_cst_0
  let main_v6 : IVec S8x256x256x50 1 := cmpf .olt main_v4 main_v5
  let main_c_1 : IVec S_ 1 := constantI S_ 1 1#1
  let main_v7 : IVec S_ 1 := (fun x v => Host.reduce IntOp.andi x v reducesTo_S8x256x256x50_S_d0_1_2_3 h_S_) main_v6 main_c_1
  let main_v8 : IVec S_ 1 := andi main_v3 main_v7
  main_v8
-- ==== Kernel.lean ====
abbrev S8x256x256x50 : Shape := ⟨4, ![8, 256, 256, 50]⟩
abbrev S2048x256x50 : Shape := ⟨3, ![2048, 256, 50]⟩
abbrev S2048x256 : Shape := ⟨2, ![2048, 256]⟩
abbrev S32x256x50 : Shape := ⟨3, ![32, 256, 50]⟩
abbrev S32x256 : Shape := ⟨2, ![32, 256]⟩
abbrev S32x256x1 : Shape := ⟨3, ![32, 256, 1]⟩
abbrev S8x256x256 : Shape := ⟨3, ![8, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x256x256x50, .f32⟩
  | .hbm, ⟨1, _⟩ => ⟨S8x256x256x50, .f32⟩
  | .hbm, ⟨2, _⟩ => ⟨S8x256x256x50, .i32⟩
  | .hbm, ⟨3, _⟩ => ⟨S2048x256x50, .f32⟩
  | .hbm, ⟨4, _⟩ => ⟨S2048x256x50, .f32⟩
  | .hbm, ⟨5, _⟩ => ⟨S2048x256x50, .i32⟩
  | .hbm, ⟨6, _⟩ => ⟨S2048x256, .f32⟩
  | .hbm, ⟨7, _⟩ => ⟨S8x256x256, .f32⟩
  | .local _ .vmem, ⟨0, _⟩ => ⟨S32x256x50, .f32⟩
  | .local _ .vmem, ⟨1, _⟩ => ⟨S32x256x50, .f32⟩
  | .local _ .vmem, ⟨2, _⟩ => ⟨S32x256x50, .f32⟩
  | .local _ .vmem, ⟨3, _⟩ => ⟨S32x256x50, .f32⟩
  | .local _ .vmem, ⟨4, _⟩ => ⟨S32x256x50, .i32⟩
  | .local _ .vmem, ⟨5, _⟩ => ⟨S32x256x50, .i32⟩
  | .local _ .vmem, ⟨6, _⟩ => ⟨S32x256, .f32⟩
  | .local _ .vmem, ⟨7, _⟩ => ⟨S32x256, .f32⟩
  | _, _ => ⟨S8x256x256x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256x50 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x256x256x50_S2048x256x50 : S8x256x256x50.ShapeCasts S2048x256x50
  inb_S32x256x50_S32x256x50_0_0_0 : ∀ a, (![0, 0, 0] : Fin 3 → Nat) a + S32x256x50.size a ≤ S32x256x50.size a
  h_S32x256x50 : 0 < S32x256x50.numel
  shapeCasts_S32x256x50_S32x256x50 : S32x256x50.ShapeCasts S32x256x50
  natLt_1_32 : 1 < 32
  reduces_S32x256x50_S32x256 : S32x256x50.Reduces [2] S32x256
  shapeCasts_S32x256_S32x256x1 : S32x256.ShapeCasts S32x256x1
  broadcasts_S32x256x1_S32x256x50 : S32x256x1.Broadcasts S32x256x50
  shapeCasts_S32x256x1_S32x256 : S32x256x1.ShapeCasts S32x256
  inb_S32x256_S32x256_0_0 : ∀ a, (![0, 0] : Fin 2 → Nat) a + S32x256.size a ≤ S32x256.size a
  h_S32x256 : 0 < S32x256.numel
  shapeCasts_S2048x256_S8x256x256 : S2048x256.ShapeCasts S8x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x50.size a ≤ S2048x256x50.size a
  hwx0_0 : ∀ i : grid0.Coords, EltTy.bits .f32 = 32 ∨ (Rect.block (s := S2048x256x50) S32x256x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x50.size a ≤ S2048x256x50.size a
  hwx0_1 : ∀ i : grid0.Coords, EltTy.bits .f32 = 32 ∨ (Rect.block (s := S2048x256x50) S32x256x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x50.size a ≤ S2048x256x50.size a
  hwx0_2 : ∀ i : grid0.Coords, EltTy.bits .i32 = 32 ∨ (Rect.block (s := S2048x256x50) S32x256x50.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S2048x256.size a
  hwx0_3 : ∀ i : grid0.Coords, EltTy.bits .f32 = 32 ∨ (Rect.block (s := S2048x256) S32x256.size (cc0_transform_3 i) (hinb0_3 i)).WholeWords (EltTy.packing .f32)

variable [Facts₀]

abbrev win0_0 : Pipeline.Window sig grid0 :=
  Pipeline.Window.ofSpec (Memref.whole main_v0) S32x256x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x256x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x256x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x256x50 : Shape := ⟨4, ![8, 256, 256, 50]⟩
abbrev S_ : Shape := ⟨0, ![]⟩
abbrev S8x256x256 : Shape := ⟨3, ![8, 256, 256]⟩
abbrev S8x256x256x1 : Shape := ⟨4, ![8, 256, 256, 1]⟩

abbrev nBuf : Space → Nat
  | .hbm => 64
  | .vmem => 0
  | .smem => 0
  | _ => 0

abbrev bufTy : (tb : Table) → Fin (tcTables nBuf tb) → BufTy
  | .hbm, ⟨0, _⟩ => ⟨S8x256x256x50, .f32⟩
  | .hbm, ⟨1, _⟩ => ⟨S8x256x256x50, .f32⟩
  | .hbm, ⟨2, _⟩ => ⟨S8x256x256x50, .i32⟩
  | .hbm, ⟨3, _⟩ => ⟨S_, .i32⟩
  | .hbm, ⟨4, _⟩ => ⟨S8x256x256x50, .i32⟩
  | .hbm, ⟨5, _⟩ => ⟨S8x256x256x50, .i1⟩
  | .hbm, ⟨6, _⟩ => ⟨S8x256x256x50, .f32⟩
  | .hbm, ⟨7, _⟩ => ⟨S8x256x256x50, .f32⟩
  | .hbm, ⟨8, _⟩ => ⟨S_, .f32⟩
  | .hbm, ⟨9, _⟩ => ⟨S8x256x256x50, .f32⟩
  | .hbm, ⟨10, _⟩ => ⟨S8x256x256x50, .f32⟩
  | .hbm, ⟨11, _⟩ => ⟨S8x256x256x50, .f32⟩
  | .hbm, ⟨12, _⟩ => ⟨S8x256x256x50, .f32⟩
  | .hbm, ⟨13, _⟩ => ⟨S_, .f32⟩
  | .hbm, ⟨14, _⟩ => ⟨S8x256x256x50, .f32⟩
  | .hbm, ⟨15, _⟩ => ⟨S8x256x256x50, .f32⟩
  | .hbm, ⟨16, _⟩ => ⟨S_, .f32⟩
  | .hbm, ⟨17, _⟩ => ⟨S8x256x256x50, .f32⟩
  | .hbm, ⟨18, _⟩ => ⟨S8x256x256x50, .f32⟩
  | .hbm, ⟨19, _⟩ => ⟨S8x256x256x50, .f32⟩
  | .hbm, ⟨20, _⟩ => ⟨S_, .f32⟩
  | .hbm, ⟨21, _⟩ => ⟨S8x256x256x50, .f32⟩
  | .hbm, ⟨22, _⟩ => ⟨S8x256x256x50, .f32⟩
  | .hbm, ⟨23, _⟩ => ⟨S_, .f32⟩
  | .hbm, ⟨24, _⟩ => ⟨S8x256x256x50, .f32⟩
  | .hbm, ⟨25, _⟩ => ⟨S8x256x256x50, .f32⟩
  | .hbm, ⟨26, _⟩ => ⟨S8x256x256x50, .f32⟩
  | .hbm, ⟨27, _⟩ => ⟨S_, .f32⟩
  | .hbm, ⟨28, _⟩ => ⟨S8x256x256, .f32⟩
  | .hbm, ⟨29, _⟩ => ⟨S8x256x256x1, .f32⟩
  | .hbm, ⟨30, _⟩ => ⟨S_, .f32⟩
  | .hbm, ⟨31, _⟩ => ⟨S8x256x256x1, .f32⟩
  | .hbm, ⟨32, _⟩ => ⟨S8x256x256x1, .f32⟩
  | .hbm, ⟨33, _⟩ => ⟨S8x256x256x50, .f32⟩
  | .hbm, ⟨34, _⟩ => ⟨S8x256x256x50, .f32⟩
  | .hbm, ⟨35, _⟩ => ⟨S_, .f32⟩
  | .hbm, ⟨36, _⟩ => ⟨S8x256x256x50, .f32⟩
  | .hbm, ⟨37, _⟩ => ⟨S8x256x256x50, .f32⟩
  | .hbm, ⟨38, _⟩ => ⟨S8x256x256x50, .f32⟩
  | .hbm, ⟨39, _⟩ => ⟨S8x256x256x50, .f32⟩
  | .hbm, ⟨40, _⟩ => ⟨S_, .f32⟩
  | .hbm, ⟨41, _⟩ => ⟨S8x256x256x1, .f32⟩
  | .hbm, ⟨42, _⟩ => ⟨S8x256x256x1, .f32⟩
  | .hbm, ⟨43, _⟩ => ⟨S_, .f32⟩
  | .hbm, ⟨44, _⟩ => ⟨S8x256x256x1, .f32⟩
  | .hbm, ⟨45, _⟩ => ⟨S8x256x256x1, .f32⟩
  | .hbm, ⟨46, _⟩ => ⟨S8x256x256x1, .f32⟩
  | .hbm, ⟨47, _⟩ => ⟨S_, .f32⟩
  | .hbm, ⟨48, _⟩ => ⟨S8x256x256x1, .f32⟩
  | .hbm, ⟨49, _⟩ => ⟨S8x256x256x1, .f32⟩
  | .hbm, ⟨50, _⟩ => ⟨S_, .f32⟩
  | .hbm, ⟨51, _⟩ => ⟨S8x256x256, .f32⟩
  | .hbm, ⟨52, _⟩ => ⟨S8x256x256x1, .f32⟩
  | .hbm, ⟨53, _⟩ => ⟨S8x256x256x1, .f32⟩
  | .hbm, ⟨54, _⟩ => ⟨S8x256x256x50, .f32⟩
  | .hbm, ⟨55, _⟩ => ⟨S_, .f32⟩
  | .hbm, ⟨56, _⟩ => ⟨S8x256x256, .f32⟩
  | .hbm, ⟨57, _⟩ => ⟨S8x256x256x1, .f32⟩
  | .hbm, ⟨58, _⟩ => ⟨S_, .f32⟩
  | .hbm, ⟨59, _⟩ => ⟨S8x256x256x1, .f32⟩
  | .hbm, ⟨60, _⟩ => ⟨S8x256x256x1, .f32⟩
  | .hbm, ⟨61, _⟩ => ⟨S8x256x256x1, .f32⟩
  | .hbm, ⟨62, _⟩ => ⟨S8x256x256x1, .f32⟩
  | .hbm, ⟨63, _⟩ => ⟨S8x256x256, .f32⟩
  | _, _ => ⟨S8x256x256x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  bcast_S_S8x256x256x50 : S_.BroadcastsInDim S8x256x256x50 (![] : Fin 0 → Fin S8x256x256x50.rank)
  reducesTo_S8x256x256x50_S8x256x256_d3 : S8x256x256x50.ReducesTo [3] S8x256x256
  h_S_ : 0 < S_.numel
  bcast_S8x256x256_S8x256x256x1_0_1_2 : S8x256x256.BroadcastsInDim S8x256x256x1 (![0, 1, 2] : Fin 3 → Fin S8x256x256x1.rank)
  bcast_S_S8x256x256x1 : S_.BroadcastsInDim S8x256x256x1 (![] : Fin 0 → Fin S8x256x256x1.rank)
  bcast_S8x256x256x1_S8x256x256x50_0_1_2_3 : S8x256x256x1.BroadcastsInDim S8x256x256x50 (![0, 1, 2, 3] : Fin 4 → Fin S8x256x256x50.rank)
  shapeCasts_S8x256x256x1_S8x256x256 : S8x256x256x1.ShapeCasts S8x256x256

variable [Facts₀]

class Facts : Prop extends Facts₀ where

variable [Facts]
-- ==== Proof.Pixel.lean ====
/-
  One pixel of the soft depth blend, on the extended reals.

  A pixel carries K = 50 slots; slot k has a depth `z k`, a signed distance `x k` and a face index `f k`
  (a slot is covered when its index is non-negative).  With

    c k   = 1 if slot k is covered, else 0
    n k   = (100 - z k) · (1/99) · c k                          (the slot's nearness)
    p     = max (max_k n k) ε                                    (the pixel's peak nearness, floored at ε)
    w k   = logistic (x k · (-1/σ)) · c k · exp ((n k - p) · (1/γ))
    b     = max (exp ((ε - p) · (1/γ))) ε                        (the background's weight)

  the pixel's value is  (Σ_k w k · z k + b · 1) / (Σ_k w k + b).

  σ = γ is the single-precision number nearest to 1/10000, the dyadic rational 13743895 / 2^37, so that
  1/γ = 2^37 / 13743895 and -1/σ is its negative; these and 1/99 are exact rationals here.  Also stated here: the
  identities that let a quotient by σ, γ or 99 be read as the product with the reciprocal (true of every extended
  real, infinite ones included, because the divisor is a nonzero real), the logistic function spelt with a
  negation, an exponential, a sum and a quotient, and the two ways of turning a one-bit comparison into 0 or 1.
-/
import Idealize.ShloMosaic.PureOps.Ideal
import Idealize.ShloMosaic.PureOps.Ideal.Laws

noncomputable section

namespace Cert.DepthBlend

open Idealize.ShloMosaic

/-! ## The constants -/

/-- 1/99: the reciprocal of the depth range. -/
def inv99 : EReal := ((1 / 99 : ℝ) : EReal)
/-- 1/γ, with γ = 13743895 / 2^37. -/
def invGamma : EReal := ((137438953472 / 13743895 : ℝ) : EReal)
/-- -1/σ, with σ = 13743895 / 2^37. -/
def negInvSigma : EReal := ((-137438953472 / 13743895 : ℝ) : EReal)

/-- The far plane, 100. -/
abbrev far : EReal := Ideal.ofBits .f32 0x42C80000#32
/-- ε, the single-precision number nearest to 10^-10. -/
abbrev tiny : EReal := Ideal.ofBits .f32 0x2EDBE6FF#32
/-- The background colour's blue component, 1. -/
abbrev blue : EReal := Ideal.ofBits .f32 0x3F800000#32
/-- -∞, from which a maximum is taken. -/
abbrev bottom : EReal := Ideal.ofBits .f32 0xFF800000#32

theorem ofBits_one : Ideal.ofBits .f32 0x3F800000#32 = 1 := by
  simp [Ideal.ofBits, Ideal.ieee, -EReal.coe_mul]; norm_num

theorem ofBits_99 : Ideal.ofBits .f32 0x42C60000#32 = ((99 : ℝ) : EReal) := by
  simp [Ideal.ofBits, Ideal.ieee, -EReal.coe_mul]; norm_num

/-- The pattern of the single-precision number nearest to 1/10000 denotes 13743895 / 2^37. -/
theorem ofBits_sigma : Ideal.ofBits .f32 0x38D1B717#32 = ((13743895 / 137438953472 : ℝ) : EReal) := by
  simp [Ideal.ofBits, Ideal.ieee, -EReal.coe_mul]; norm_num

/-! ## Quotients by the three real divisors as products -/

/-- Dividing by 99 is multiplying by 1/99, on every extended real. -/
theorem div_99 (a : EReal) : Ideal.div a (Ideal.ofBits .f32 0x42C60000#32) = a * inv99 := by
  rw [ofBits_99, Ideal.div_coe (by norm_num : (99 : ℝ) ≠ 0)]; rfl

/-- Dividing by γ is multiplying by 1/γ, on every extended real. -/
theorem div_gamma (a : EReal) : Ideal.div a (Ideal.ofBits .f32 0x38D1B717#32) = a * invGamma := by
  rw [ofBits_sigma, Ideal.div_coe (by norm_num : (13743895 / 137438953472 : ℝ) ≠ 0)]
  unfold invGamma
  congr 2
  norm_num

/-- Negating and then dividing by σ is multiplying by -1/σ: the sign moves across the product. -/
theorem neg_div_sigma (a : EReal) : Ideal.div (-a) (Ideal.ofBits .f32 0x38D1B717#32) = a * negInvSigma := by
  rw [div_gamma, neg_mul, ← mul_neg]
  unfold invGamma negInvSigma
  rw [← EReal.coe_neg]
  congr 2
  norm_num

/-- The logistic function spelt out: 1 / (1 + exp (-y)). -/
theorem logistic_spelt (y : EReal) :
    Ideal.div (Ideal.ofBits .f32 0x3F800000#32) (Ideal.ofBits .f32 0x3F800000#32 + Ideal.exp (-y)) = Ideal.logistic y := by
  rw [ofBits_one]; rfl

/-- A one-bit word widened with zeros and read as a signed integer is the bit read as a natural number. -/
theorem bit_signed_eq_unsigned (b : BitVec 1) : (((b.setWidth 32).toInt : ℝ) : EReal) = ((b.toNat : ℝ) : EReal) := by
  rcases BitVec.eq_zero_or_eq_one b with rfl | rfl <;> rfl

/-! ## The pixel -/

section Pixel

variable (z x : Fin 50 → EReal) (f : Fin 50 → BitVec 32)

/-- 1 on a covered slot (face index ≥ 0 as a signed word), 0 on an empty one. -/
def covered (b : BitVec 32) : EReal := (((IntOp.cmpi .sge b 0#32).toNat : ℝ) : EReal)

/-- A slot's nearness: (100 - z) / 99 on a covered slot, 0 on an empty one. -/
def nearness (k : Fin 50) : EReal := (far - z k) * inv99 * covered (f k)

/-- The pixel's peak nearness, floored at ε. -/
def peak : EReal := max ((Finset.univ : Finset (Fin 50)).fold max bottom (nearness z f)) tiny

/-- A slot's weight: the distance's logistic on a covered slot, times the softmax factor of its nearness. -/
def weight (k : Fin 50) : EReal :=
  Ideal.logistic (x k * negInvSigma) * covered (f k) * Ideal.exp ((nearness z f k - peak z f) * invGamma)

/-- The background's weight. -/
def backdrop : EReal := max (Ideal.exp ((tiny - peak z f) * invGamma)) tiny

/-- The blended value of the pixel. -/
def blend : EReal :=
  Ideal.div ((∑ k : Fin 50, weight z x f k * z k) + backdrop z f * blue) ((∑ k : Fin 50, weight z x f k) + backdrop z f)

end Pixel

end Cert.DepthBlend

end
-- ==== Proof.KernelPixel.lean ====
/-
  The kernel's body, read at one pixel of a block.

  The body works on a block of 32 rows of 256 pixels with 50 slots each.  Entry (r, w) of what it stores depends only on
  the 50 slots of pixel (r, w) in the three input blocks: stage by stage — the coverage bit, a slot's nearness, the
  pixel's peak, a slot's weight, the background's weight, the two sums over the slots and the final quotient — each stage
  of the body is the corresponding piece of `DepthBlend`, the three named rationals read as the table gives them.  The
  reductions over the slot axis are a fold of `max` from -∞ and plain sums; the casts between [32, 256] and [32, 256, 1]
  and the broadcast of a pixel's value over its 50 slots only move an index.
-/
import proofs.«400057_j85796266705111_3_alg».proof.Proof.Gen.KernelIdeal.Frame
import proofs.«400057_j85796266705111_3_alg».proof.Proof.Pixel
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.PixelValue

open Cert.KernelIdeal Cert.KernelIdeal.Gen
open Idealize.ShloMosaic Idealize.ShloMosaic.ValueIdx Cert.DepthBlend

/-! ## The three named rationals -/

theorem named_inv99 : Named.named (F := Ideal) κ "inv_99" (φ := .f32) 0x3C257EB5#32 = inv99 :=
  IdealRules.named_const.ideal_named_scalar _ _ _ _ rfl
theorem named_invGamma : Named.named (F := Ideal) κ "inv_gamma" (φ := .f32) 0x461C4000#32 = invGamma :=
  IdealRules.named_const.ideal_named_scalar _ _ _ _ rfl
theorem named_negInvSigma : Named.named (F := Ideal) κ "neg_inv_sigma" (φ := .f32) 0xC61C4000#32 = negInvSigma :=
  IdealRules.named_const.ideal_named_scalar _ _ _ _ rfl

/-- A scalar constant of the body denotes what its pattern denotes. -/
theorem scalar_ofBits (b : BitVec 32) : Scalar.ofBits (F := Ideal) .f32 b = Ideal.ofBits .f32 b := rfl

/-- The exponential of a vector, at an index. -/
theorem exp_at {s : Shape} (a : FVec Ideal s .f32) (i : s.Idx) : exp a i = Ideal.exp (a i) := rfl

/-! ## Moving an index through the body's layout operations -/

section Layout

variable {α : Type} (r : Fin 32) (w : Fin 256)

/-- A pixel's value with a unit slot axis appended. -/
theorem addUnit_at (v : S32x256.Idx → α) (u : Fin 1) :
    shapeCast S32x256x1 v shapeCasts_S32x256_S32x256x1 (ix3 r w u) = v (ix2 r w) :=
  shapeCast_apply v shapeCasts_S32x256_S32x256x1 (ix3 r w u) (ix2 r w) (by
    rw [Shape.rowMajor_val_two, Shape.rowMajor_val_three]
    show r.val * 256 + w.val = (r.val * 256 + w.val) * 1 + u.val
    have := u.isLt; omega)

/-- The unit slot axis dropped again. -/
theorem dropUnit_at (v : S32x256x1.Idx → α) :
    shapeCast S32x256 v shapeCasts_S32x256x1_S32x256 (ix2 r w) = v (ix3 r w (0 : Fin 1)) :=
  shapeCast_apply v shapeCasts_S32x256x1_S32x256 (ix2 r w) (ix3 r w (0 : Fin 1)) (by
    rw [Shape.rowMajor_val_two, Shape.rowMajor_val_three]
    show (r.val * 256 + w.val) * 1 + 0 = r.val * 256 + w.val
    omega)

/-- A pixel's value spread over its 50 slots. -/
theorem spread_at (v : S32x256x1.Idx → α) (k : Fin 50) :
    broadcastTo S32x256x50 v broadcasts_S32x256x1_S32x256x50 (ix3 r w k) = v (ix3 r w (0 : Fin 1)) :=
  broadcastTo_apply v broadcasts_S32x256x1_S32x256x50 (ix3 r w k) (ix3 r w (0 : Fin 1)) (fun a => by
    match a with
    | ⟨0, _⟩ => show r.val = if (32 : Nat) = 1 then 0 else r.val; rw [if_neg (by decide)]
    | ⟨1, _⟩ => show w.val = if (256 : Nat) = 1 then 0 else w.val; rw [if_neg (by decide)]
    | ⟨2, _⟩ => show 0 = if (1 : Nat) = 1 then 0 else k.val; rw [if_pos rfl])

/-- Slot k of pixel (r, w), as a reduction over the slot axis inserts it. -/
theorem lift_slot (hr : S32x256x50.Reduces [2] S32x256) (k : Fin 50) : hr.lift (ix2 r w) k = ix3 r w k := by
  funext a
  apply Fin.ext
  match a with
  | ⟨0, _⟩ => rfl
  | ⟨1, _⟩ => rfl
  | ⟨2, _⟩ => rfl

/-- A sum over the slot axis from 0, at a pixel. -/
theorem slotSum_at (v : FVec Ideal S32x256x50 .f32) :
    multiReduction .add [2] S32x256 v 0x00000000#32 reduces_S32x256x50_S32x256 (.inl rfl) rfl (ix2 r w)
      = ∑ k : Fin 50, v (ix3 r w k) :=
  (Ideal.multiReduction_add_single v 0x00000000#32 reduces_S32x256x50_S32x256 (.inl rfl) rfl (ix2 r w)).trans
    (Finset.sum_congr rfl fun k _ => congrArg v (lift_slot r w _ k))

/-- A maximum over the slot axis from -∞, at a pixel. -/
theorem slotMax_at (v : FVec Ideal S32x256x50 .f32) :
    multiReduction .maximumf [2] S32x256 v 0xFF800000#32 reduces_S32x256x50_S32x256 (.inl rfl) rfl (ix2 r w)
      = (Finset.univ : Finset (Fin 50)).fold max bottom (fun k => v (ix3 r w k)) :=
  (Ideal.multiReduction_maximumf_single v 0xFF800000#32 reduces_S32x256x50_S32x256 (.inl rfl) rfl (ix2 r w)).trans
    (Finset.fold_congr fun k _ => congrArg v (lift_slot r w _ k))

end Layout

/-! ## The body's stages at pixel (r, w) of a block -/

variable (x0 x1 : FVec Ideal S32x256x50 .f32) (x2 : IVec S32x256x50 32) (r : Fin 32) (w : Fin 256)

/-- The pixel's 50 depths. -/
abbrev depths : Fin 50 → EReal := fun k => x0 (ix3 r w k)
/-- The pixel's 50 signed distances. -/
abbrev dists : Fin 50 → EReal := fun k => x1 (ix3 r w k)
/-- The pixel's 50 face indices. -/
abbrev faces : Fin 50 → BitVec 32 := fun k => x2 (ix3 r w k)

/-- The coverage bit, widened and read as a signed integer, as a number. -/
theorem covered_at (k : Fin 50) : k0_pay3 (F := Ideal) x2 (ix3 r w k) = covered (x2 (ix3 r w k)) := by
  unfold k0_pay3
  simp only [shapeCast_self]
  exact bit_signed_eq_unsigned _

/-- A slot's nearness. -/
theorem nearness_at (k : Fin 50) :
    k0_pay4 (F := Ideal) x0 x2 (ix3 r w k) = nearness (depths x0 r w) (faces x2 r w) k := by
  unfold k0_pay4 k0_pay2
  simp only [shapeCast_self]
  show (Scalar.ofBits (F := Ideal) .f32 0x42C80000#32 - x0 (ix3 r w k)) * Named.named (F := Ideal) κ "inv_99" (φ := .f32) 0x3C257EB5#32
      * k0_pay3 (F := Ideal) x2 (ix3 r w k) = _
  rw [covered_at, named_inv99, scalar_ofBits]
  rfl

/-- The pixel's peak. -/
theorem peak_at (u : Fin 1) :
    k0_pay5 (F := Ideal) x0 x2 (ix3 r w u) = peak (depths x0 r w) (faces x2 r w) := by
  unfold k0_pay5
  show max (shapeCast S32x256x1 (multiReduction .maximumf [2] S32x256 (k0_pay4 (F := Ideal) x0 x2) 0xFF800000#32 reduces_S32x256x50_S32x256 (.inl rfl) rfl)
      shapeCasts_S32x256_S32x256x1 (ix3 r w u)) tiny = _
  rw [addUnit_at]
  unfold peak
  refine congrArg (fun t => max t tiny) ?_
  exact (slotMax_at r w _).trans (Finset.fold_congr fun k _ => nearness_at x0 x2 r w k)

/-- A slot's weight. -/
theorem weight_at (k : Fin 50) :
    k0_pay6 (F := Ideal) x0 x1 x2 (ix3 r w k) = weight (depths x0 r w) (dists x1 r w) (faces x2 r w) k := by
  unfold k0_pay6
  simp only [shapeCast_self]
  show Ideal.logistic (x1 (ix3 r w k) * Named.named (F := Ideal) κ "neg_inv_sigma" (φ := .f32) 0xC61C4000#32)
        * k0_pay3 (F := Ideal) x2 (ix3 r w k)
      * Ideal.exp ((k0_pay4 (F := Ideal) x0 x2 (ix3 r w k)
          - broadcastTo S32x256x50 (k0_pay5 (F := Ideal) x0 x2) broadcasts_S32x256x1_S32x256x50 (ix3 r w k))
        * Named.named (F := Ideal) κ "inv_gamma" (φ := .f32) 0x461C4000#32) = _
  rw [spread_at, covered_at, nearness_at, peak_at, named_negInvSigma, named_invGamma]
  rfl

/-- The background's weight. -/
theorem backdrop_at (u : Fin 1) :
    k0_pay7 (F := Ideal) x0 x2 (ix3 r w u) = backdrop (depths x0 r w) (faces x2 r w) := by
  unfold k0_pay7
  simp only [maximumf_apply, exp_at, mulf_apply, subf_apply, broadcast_apply, peak_at, named_invGamma, scalar_ofBits]
  rfl

/-- The sum of the weights plus the background's. -/
theorem total_at (u : Fin 1) :
    k0_pay8 (F := Ideal) x0 x1 x2 (ix3 r w u)
      = (∑ k : Fin 50, weight (depths x0 r w) (dists x1 r w) (faces x2 r w) k) + backdrop (depths x0 r w) (faces x2 r w) := by
  unfold k0_pay8
  show shapeCast S32x256x1 (multiReduction .add [2] S32x256 (k0_pay6 (F := Ideal) x0 x1 x2) 0x00000000#32
        reduces_S32x256x50_S32x256 (.inl rfl) rfl) shapeCasts_S32x256_S32x256x1 (ix3 r w u)
      + k0_pay7 (F := Ideal) x0 x2 (ix3 r w u) = _
  rw [addUnit_at, backdrop_at]
  exact congrArg (· + _) ((slotSum_at r w _).trans (Finset.sum_congr rfl fun k _ => weight_at x0 x1 x2 r w k))

/-- The last stage on any operands: the weighted sum over the slots plus the background's share, over the total. -/
theorem quotient_at (v1 v28 : FVec Ideal S32x256x50 .f32) (v35 v38 : FVec Ideal S32x256x1 .f32) :
    k0_pay1 (F := Ideal) v1 v28 v35 v38 (ix2 r w)
      = Ideal.div ((∑ k : Fin 50, v28 (ix3 r w k) * v1 (ix3 r w k)) + v35 (ix3 r w (0 : Fin 1)) * blue)
          (v38 (ix3 r w (0 : Fin 1))) := by
  unfold k0_pay1
  simp only [dropUnit_at]
  show Ideal.div (shapeCast S32x256x1 (multiReduction .add [2] S32x256 (mulf v28 v1) 0x00000000#32
        reduces_S32x256x50_S32x256 (.inl rfl) rfl) shapeCasts_S32x256_S32x256x1 (ix3 r w (0 : Fin 1))
      + v35 (ix3 r w (0 : Fin 1)) * Scalar.ofBits (F := Ideal) .f32 0x3F800000#32) (v38 (ix3 r w (0 : Fin 1))) = _
  rw [addUnit_at, slotSum_at, scalar_ofBits]
  rfl

theorem zero2 : (![0, 0] : Fin 2 → Nat) = fun _ => 0 := funext fun a => by
  match a with | ⟨0, _⟩ => rfl | ⟨1, _⟩ => rfl
theorem zero3 : (![0, 0, 0] : Fin 3 → Nat) = fun _ => 0 := funext fun a => by
  match a with | ⟨0, _⟩ => rfl | ⟨1, _⟩ => rfl | ⟨2, _⟩ => rfl

/-- THE BODY AT A PIXEL: entry (r, w) of what the body stores is the blend of that pixel's 50 slots in the three input
    blocks (the one store writes the whole output block, each load reads a whole input block). -/
theorem block_at :
    out0_3 (F := Ideal) x0 x1 x2 (ix2 r w) = blend (depths x0 r w) (dists x1 r w) (faces x2 r w) := by
  unfold out0_3
  rw [View.canon_unit_zero zero2]
  simp only [View.ld_unit_zero (S := S32x256x50) zero3]
  rw [quotient_at, total_at, backdrop_at]
  unfold blend k0_pay2
  simp only [shapeCast_self, weight_at]

end Cert.KernelIdeal.PixelValue

end
-- ==== Proof.Image.lean ====
/-
  The whole image: pixel (n, h, w) of the result is the blend of that pixel's 50 slots in the three argument arrays.
-/
import proofs.«400057_j85796266705111_3_alg».proof.Proof.Pixel
import Idealize.ShloMosaic.Lib.ValueIdx

noncomputable section

namespace Cert.DepthBlend

open Idealize.ShloMosaic Idealize.ShloMosaic.ValueIdx

/-- The blended image of depths `a0`, signed distances `a1` and face indices `a2`, each of 8 images of 256 × 256 pixels
    with 50 slots. -/
def image (a0 a1 : (⟨4, ![8, 256, 256, 50]⟩ : Shape).Idx → EReal) (a2 : (⟨4, ![8, 256, 256, 50]⟩ : Shape).Idx → BitVec 32) :
    (⟨3, ![8, 256, 256]⟩ : Shape).Idx → EReal := fun i =>
  blend (fun k => a0 (ix4 (i 0 : Fin 8) (i 1 : Fin 256) (i 2 : Fin 256) k))
    (fun k => a1 (ix4 (i 0 : Fin 8) (i 1 : Fin 256) (i 2 : Fin 256) k))
    (fun k => a2 (ix4 (i 0 : Fin 8) (i 1 : Fin 256) (i 2 : Fin 256) k))

theorem image_at (a0 a1 : (⟨4, ![8, 256, 256, 50]⟩ : Shape).Idx → EReal) (a2 : (⟨4, ![8, 256, 256, 50]⟩ : Shape).Idx → BitVec 32)
    (n : Fin 8) (h w : Fin 256) :
    image a0 a1 a2 (ix3 n h w)
      = blend (fun k => a0 (ix4 n h w k)) (fun k => a1 (ix4 n h w k)) (fun k => a2 (ix4 n h w k)) := rfl

end Cert.DepthBlend

end
-- ==== Proof.KernelArray.lean ====
/-
  The kernel's result array.

  The three arguments, 8 images of 256 × 256 pixels with 50 slots, are first laid out as 2048 rows of 256 pixels (row
  n · 256 + h is line h of image n).  The grid's point t works on rows 32 t … 32 t + 31: entry (r, w) of its input blocks
  is pixel (32 t + r, w) of the laid-out arrays, and entry (r, w) of what it writes back is the blend of that pixel's 50
  slots.  The 64 blocks tile the 2048 rows, so the 2048 × 256 result is the blended image laid out by rows, and the final
  layout change back to 8 × 256 × 256 gives the blended image itself.
-/
import proofs.«400057_j85796266705111_3_alg».proof.Proof.KernelPixel
import proofs.«400057_j85796266705111_3_alg».proof.Proof.Image
import proofs.«400057_j85796266705111_3_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.ArrayValue

open Cert.KernelIdeal Cert.KernelIdeal.Gen Cert.KernelIdeal.PixelValue
open Idealize.ShloMosaic Idealize.ShloMosaic.TcCoe Idealize.SL.Sem Idealize.ShloMosaic.ValueIdx Cert.DepthBlend
open Idealize.ShloMosaic.Pipeline (Dat)

variable (m : (ℓ : Loc nD τ sig) → Buf (Elt Ideal) ℓ) (ρ : Dev nD → PrngReg)

/-- The depths as launched. -/
abbrev zarr (c : Dev nD) : FVec Ideal S8x256x256x50 .f32 := m ((c : Thread nD τ).loc main_arg0)
/-- The signed distances as launched. -/
abbrev xarr (c : Dev nD) : FVec Ideal S8x256x256x50 .f32 := m ((c : Thread nD τ).loc main_arg1)
/-- The face indices as launched. -/
abbrev farr (c : Dev nD) : IVec S8x256x256x50 32 := m ((c : Thread nD τ).loc main_arg2)

/-! ## Rows -/

/-- An array of 8 × 256 × 256 pixels with 50 slots laid out as 2048 rows, at row n · 256 + h. -/
theorem rowsOf_at {α : Type} (a : S8x256x256x50.Idx → α) (n : Fin 8) (h w : Fin 256) (k : Fin 50) (row : Fin 2048)
    (hrow : row.val = n.val * 256 + h.val) :
    shapeCast S2048x256x50 a shapeCasts_S8x256x256x50_S2048x256x50 (ix3 row w k) = a (ix4 n h w k) :=
  shapeCast_apply a shapeCasts_S8x256x256x50_S2048x256x50 (ix3 row w k) (ix4 n h w k) (by
    rw [Shape.rowMajor_val_four, Shape.rowMajor_val_three]
    show ((n.val * 256 + h.val) * 256 + w.val) * 50 + k.val = (row.val * 256 + w.val) * 50 + k.val
    rw [hrow])

/-- The blended image laid out as 2048 rows of 256 pixels. -/
abbrev rows (c : Dev nD) : S2048x256.Idx → EReal :=
  shapeCast S2048x256 (image (zarr m c) (xarr m c) (farr m c)) (by decide)

theorem rows_at (c : Dev nD) (n : Fin 8) (h w : Fin 256) (row : Fin 2048) (hrow : row.val = n.val * 256 + h.val) :
    rows m c (ix2 row w)
      = blend (fun k => zarr m c (ix4 n h w k)) (fun k => xarr m c (ix4 n h w k)) (fun k => farr m c (ix4 n h w k)) :=
  (shapeCast_apply (image (zarr m c) (xarr m c) (farr m c)) (by decide) (ix2 row w) (ix3 n h w) (by
    rw [Shape.rowMajor_val_three, Shape.rowMajor_val_two]
    show (n.val * 256 + h.val) * 256 + w.val = row.val * 256 + w.val
    rw [hrow])).trans (image_at _ _ _ n h w)

/-! ## The arrays as the region finds them -/

theorem entry_v0 (c : Dev nD) :
    (V m c main_v0 : S2048x256x50.Idx → EReal) = shapeCast S2048x256x50 (zarr m c) shapeCasts_S8x256x256x50_S2048x256x50 := by
  show StableHlo.after hostOps0 (fun b => m (c, b)) (Proc.devRef .tc main_v0) = _
  after_results
  rfl
theorem entry_v1 (c : Dev nD) :
    (V m c main_v1 : S2048x256x50.Idx → EReal) = shapeCast S2048x256x50 (xarr m c) shapeCasts_S8x256x256x50_S2048x256x50 := by
  show StableHlo.after hostOps0 (fun b => m (c, b)) (Proc.devRef .tc main_v1) = _
  after_results
  rfl
theorem entry_v2 (c : Dev nD) :
    (V m c main_v2 : S2048x256x50.Idx → BitVec 32) = shapeCast S2048x256x50 (farr m c) shapeCasts_S8x256x256x50_S2048x256x50 := by
  show StableHlo.after hostOps0 (fun b => m (c, b)) (Proc.devRef .tc main_v2) = _
  after_results
  rfl

/-! ## The index maps over the grid -/

/-- Point t's blocks start at row 32 t and take every pixel and slot. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-! ## A point's blocks -/

/-- Where entry (r, w, k) of point t's input blocks sits in the laid-out arrays: row 32 t + r. -/
theorem emb_in (t : Fin cfg0.N) (r : Fin 32) (w : Fin 256) (k : Fin 50) (row : Fin 2048) (hrow : row.val = 32 * t.val + r.val) :
    ((cfg0.win 0).blk t).view.emb (ix3 r w k) = ix3 row w k
    ∧ ((cfg0.win 1).blk t).view.emb (ix3 r w k) = ix3 row w k
    ∧ ((cfg0.win 2).blk t).view.emb (ix3 r w k) = ix3 row w k := by
  obtain ⟨a0, a1, a2, b0, b1, b2, c0, c1, c2, -, -⟩ := index_facts t
  refine ⟨?_, ?_, ?_⟩ <;> funext a <;> apply Fin.ext
  · match a with
    | ⟨0, _⟩ => show win0_0.index t (0 : Fin 3) * 32 + 1 * r.val = row.val; rw [a0, hrow]; omega
    | ⟨1, _⟩ => show win0_0.index t (1 : Fin 3) * 256 + 1 * w.val = w.val; rw [a1]; omega
    | ⟨2, _⟩ => show win0_0.index t (2 : Fin 3) * 50 + 1 * k.val = k.val; rw [a2]; omega
  · match a with
    | ⟨0, _⟩ => show win0_1.index t (0 : Fin 3) * 32 + 1 * r.val = row.val; rw [b0, hrow]; omega
    | ⟨1, _⟩ => show win0_1.index t (1 : Fin 3) * 256 + 1 * w.val = w.val; rw [b1]; omega
    | ⟨2, _⟩ => show win0_1.index t (2 : Fin 3) * 50 + 1 * k.val = k.val; rw [b2]; omega
  · match a with
    | ⟨0, _⟩ => show win0_2.index t (0 : Fin 3) * 32 + 1 * r.val = row.val; rw [c0, hrow]; omega
    | ⟨1, _⟩ => show win0_2.index t (1 : Fin 3) * 256 + 1 * w.val = w.val; rw [c1]; omega
    | ⟨2, _⟩ => show win0_2.index t (2 : Fin 3) * 50 + 1 * k.val = k.val; rw [c2]; omega

/-- Entry (r, w, k) of point t's input blocks is slot k of pixel (n, h, w) of the arguments, where 32 t + r = n · 256 + h. -/
theorem blocks_at (c : Dev nD) (t : Fin cfg0.N) (r : Fin 32) (w : Fin 256) (k : Fin 50) (n : Fin 8) (h : Fin 256)
    (hrow : 32 * t.val + r.val = n.val * 256 + h.val) :
    (iblk m c 0 t : FVec Ideal S32x256x50 .f32) (ix3 r w k) = zarr m c (ix4 n h w k)
    ∧ (iblk m c 1 t : FVec Ideal S32x256x50 .f32) (ix3 r w k) = xarr m c (ix4 n h w k)
    ∧ (iblk m c 2 t : IVec S32x256x50 32) (ix3 r w k) = farr m c (ix4 n h w k) := by
  have hn : n.val < 8 := n.isLt
  have hh : h.val < 256 := h.isLt
  obtain ⟨e0, e1, e2⟩ := emb_in t r w k ⟨n.val * 256 + h.val, by omega⟩ hrow.symm
  refine ⟨?_, ?_, ?_⟩
  · unfold iblk
    rw [View.read_apply]
    show (V m c main_v0 : S2048x256x50.Idx → EReal) (((cfg0.win 0).blk t).view.emb (ix3 r w k)) = _
    rw [e0, entry_v0]
    exact rowsOf_at _ n h w k _ rfl
  · unfold iblk
    rw [View.read_apply]
    show (V m c main_v1 : S2048x256x50.Idx → EReal) (((cfg0.win 1).blk t).view.emb (ix3 r w k)) = _
    rw [e1, entry_v1]
    exact rowsOf_at _ n h w k _ rfl
  · unfold iblk
    rw [View.read_apply]
    show (V m c main_v2 : S2048x256x50.Idx → BitVec 32) (((cfg0.win 2).blk t).view.emb (ix3 r w k)) = _
    rw [e2, entry_v2]
    exact rowsOf_at _ n h w k _ rfl

/-- WHAT POINT t WRITES BACK is its block of the blended rows. -/
theorem flushed_eq (c : Dev nD) (t : Fin cfg0.N) :
    (dats m 0 c).flushed 3 t = ((cfg0.win 3).blk t).view.read (Elt Ideal) (rows m c) := by
  show (cfg0.win 3).cut (grid0.coords t) ((dats m 0 c).after 3 t) = _
  rw [after0_3]
  funext y
  obtain ⟨r, w, rfl⟩ : ∃ (r : Fin 32) (w : Fin 256), y = ix2 r w := ⟨y 0, y 1, eq_ix2 y⟩
  have ht : t.val < 64 := lt_of_lt_of_eq t.isLt N_0
  have hr : r.val < 32 := r.isLt
  obtain ⟨-, -, -, -, -, -, -, -, -, d0, d1⟩ := index_facts t
  have e3 : ((cfg0.win 3).blk t).view.emb (ix2 r w) = ix2 (⟨32 * t.val + r.val, by omega⟩ : Fin 2048) w := by
    funext a; apply Fin.ext
    match a with
    | ⟨0, _⟩ => show win0_3.index t (0 : Fin 2) * 32 + 1 * r.val = 32 * t.val + r.val; rw [d0]; omega
    | ⟨1, _⟩ => show win0_3.index t (1 : Fin 2) * 256 + 1 * w.val = w.val; rw [d1]; omega
  have hrow : 32 * t.val + r.val = (⟨(32 * t.val + r.val) / 256, by omega⟩ : Fin 8).val * 256
      + (⟨(32 * t.val + r.val) % 256, by omega⟩ : Fin 256).val := by
    show 32 * t.val + r.val = (32 * t.val + r.val) / 256 * 256 + (32 * t.val + r.val) % 256
    omega
  show out0_3 (F := Ideal) (iblk m c 0 t) (iblk m c 1 t) (iblk m c 2 t) (ix2 r w) = rows m c (((cfg0.win 3).blk t).view.emb (ix2 r w))
  rw [e3, rows_at m c _ _ w _ hrow]
  refine (block_at _ _ _ r w).trans ?_
  congr 1 <;> funext k
  · exact (blocks_at m c t r w k _ _ hrow).1
  · exact (blocks_at m c t r w k _ _ hrow).2.1
  · exact (blocks_at m c t r w k _ _ hrow).2.2

/-- The 64 blocks tile the 2048 rows: row i is in block i / 32. -/
theorem tiled (i : S2048x256.Idx) :
    ∃ t : Fin cfg0.N, (cfg0.win 3).flush t = true ∧ i ∈ ((cfg0.win 3).blk t).view.set := by
  have h0 : (i 0).val < 2048 := (i 0).isLt
  have h1 : (i 1).val < 256 := (i 1).isLt
  have hq : (i 0).val / 32 < cfg0.N := lt_of_lt_of_eq (by omega : (i 0).val / 32 < 64) N_0.symm
  refine ⟨⟨(i 0).val / 32, hq⟩, flush0_3 _, ?_⟩
  obtain ⟨-, -, -, -, -, -, -, -, -, d0, d1⟩ := index_facts ⟨(i 0).val / 32, hq⟩
  show i ∈ ((View.whole main_v3).slice (win0_3.rect ⟨(i 0).val / 32, hq⟩)).set
  rw [View.set_slice_whole, Rect.mem_set_unit]
  intro a
  match a with
  | ⟨0, _⟩ =>
    show win0_3.index _ (0 : Fin 2) * 32 ≤ (i 0).val ∧ (i 0).val < win0_3.index _ (0 : Fin 2) * 32 + 32
    rw [d0]; show (i 0).val / 32 * 32 ≤ (i 0).val ∧ (i 0).val < (i 0).val / 32 * 32 + 32; omega
  | ⟨1, _⟩ =>
    show win0_3.index _ (1 : Fin 2) * 256 ≤ (i 1).val ∧ (i 1).val < win0_3.index _ (1 : Fin 2) * 256 + 256
    rw [d1]; omega

/-- The 2048 × 256 result array after the region: the blended rows. -/
theorem final_rows (c : Dev nD) : (dats m 0 c).arrAt 3 cfg0.N = rows m c :=
  (dats m 0 c).arrAt_eq_of_cover 3 (rows m c) (fun t _ => flushed_eq m c t) (tiled)

/-- The trailing layout change undoes the layout by rows. -/
theorem unrows (c : Dev nD) :
    shapeCast S8x256x256 (rows m c) shapeCasts_S2048x256_S8x256x256 = image (zarr m c) (xarr m c) (farr m c) := by
  funext i
  obtain ⟨n, h, w, rfl⟩ : ∃ (n : Fin 8) (h w : Fin 256), i = ix3 n h w := ⟨i 0, i 1, i 2, eq_ix3 i⟩
  have hn : n.val < 8 := n.isLt
  have hh : h.val < 256 := h.isLt
  refine (shapeCast_apply (rows m c) shapeCasts_S2048x256_S8x256x256 (ix3 n h w)
    (ix2 (⟨n.val * 256 + h.val, by omega⟩ : Fin 2048) w) (by
      rw [Shape.rowMajor_val_two, Shape.rowMajor_val_three]; rfl)).trans ?_
  rw [rows_at m c n h w _ rfl, image_at]

/-- The result as the lines after the region leave it: the blended image. -/
theorem result (c : Dev nD) :
    Pipeline.afterTail₀ cfgs (dats m) 0 (V0 m) [hostOps1] c main_v4 = image (zarr m c) (xarr m c) (farr m c) := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v3) = rows m c :=
    (Pipeline.withArrays_arr spec0 launch0.win.arr_inj c _ _ 3).trans (final_rows m c)
  show (fun i => shapeCast S8x256x256 (Pipeline.withArrays (cfgs 0).spec c (V0 m c)
      (fun w => (dats m 0 c).arrAt w (cfgs 0).N) (Proc.devRef .tc main_v3)) shapeCasts_S2048x256_S8x256x256 i) = _
  rw [e]
  exact unrows m c

/-- THE KERNEL'S RUN, READ: every weakly fair execution terminates with the result array at the blended image of the
    arguments, and the arguments unchanged. -/
theorem run : θ_run defs (onTc (τ := τ) (main (F := Ideal))) ⟨m, fun _ => 0, ρ⟩ fun r => ∀ c : Dev nD,
      r.2.mem ((c.tc : Thread nD τ).loc main_v4) = image (zarr m c) (xarr m c) (farr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ArrayValue

end
-- ==== Proof.RefPixel.lean ====
/-
  The reference, read at one pixel.

  Pixel (n, h, w) of the reference's result depends only on the 50 slots of that pixel in the three arguments: written
  out stage by stage — the coverage bit, a slot's nearness, the pixel's peak, a slot's weight, the background's weight,
  the two sums over the slots and the final quotient — each stage is the corresponding piece of `DepthBlend`.  The
  reference divides where the specification multiplies (by 99, by γ, and by σ after a negation) and spells the logistic
  function with a negation, an exponential, a sum and a quotient; the identities of the specification's module turn the
  one into the other on every extended real.  The pixel's maximum is the fold of `max` over the slot axis from -∞.
-/
import proofs.«400057_j85796266705111_3_alg».proof.Proof.Gen.ReferenceIdeal.Read
import proofs.«400057_j85796266705111_3_alg».proof.Proof.Pixel
import Idealize.ShloMosaic.Lib.ValueIdx
import Idealize.ShloMosaic.PureOps.Ideal.Laws

noncomputable section

namespace Cert.ReferenceIdeal.PixelValue

open Cert.ReferenceIdeal Cert.ReferenceIdeal.Gen Cert.ReferenceIdeal.Read
open Idealize.ShloMosaic Idealize.ShloMosaic.ValueIdx Cert.DepthBlend

variable (a0 a1 : (⟨S8x256x256x50, .f32⟩ : BufTy).Contents (Elt Ideal)) (a2 : (⟨S8x256x256x50, .i32⟩ : BufTy).Contents (Elt Ideal))
variable (n : Fin 8) (h : Fin 256) (w : Fin 256)

/-- The pixel's 50 depths. -/
abbrev depths : Fin 50 → EReal := fun k => a0 (ix4 n h w k)
/-- The pixel's 50 signed distances. -/
abbrev dists : Fin 50 → EReal := fun k => a1 (ix4 n h w k)
/-- The pixel's 50 face indices. -/
abbrev faces : Fin 50 → BitVec 32 := fun k => a2 (ix4 n h w k)

/-- The coverage bit as a number. -/
theorem covered_at (k : Fin 50) : val_main_v2 (F := Ideal) a2 (ix4 n h w k) = covered (a2 (ix4 n h w k)) := by
  rw [val_main_v2_apply, val_main_v1_apply, val_main_v0_apply, val_main_c_apply]
  rfl

/-- A slot's nearness: the quotient by 99 read as the product with 1/99. -/
theorem nearness_at (k : Fin 50) :
    val_main_v17 (F := Ideal) a0 a2 (ix4 n h w k) = nearness (depths a0 n h w) (faces a2 n h w) k := by
  rw [val_main_v17_apply, val_main_v16_apply, val_main_v14_apply, val_main_v13_apply, val_main_cst_2_apply,
    val_main_v15_apply, val_main_cst_3_apply, covered_at]
  simp only [Ideal.mulf_def, Ideal.hostDivf_def, Ideal.subf_def, Ideal.ofBits_def, div_99]
  rfl

/-- The index of slot k of the pixel, as the reduction over the slot axis inserts it. -/
theorem lift_slot (hr : S8x256x256x50.Reduces [3] S8x256x256) (k : Fin 50) :
    hr.lift (ix3 n h w) k = ix4 n h w k := by
  funext a
  apply Fin.ext
  match a with
  | ⟨0, _⟩ => rfl
  | ⟨1, _⟩ => rfl
  | ⟨2, _⟩ => rfl
  | ⟨3, _⟩ => rfl

/-- The pixel's peak: the maximum over the slots from -∞, floored at ε. -/
theorem peak_at : val_main_v21 (F := Ideal) a0 a2 (ix4 n h w 0) = peak (depths a0 n h w) (faces a2 n h w) := by
  rw [val_main_v21_apply, val_main_v19_apply, val_main_v20_apply, val_main_cst_5_apply]
  have hi : idx_main_v19 (ix4 n h w (0 : Fin 1)) = ix3 n h w := by
    funext a; match a with | ⟨0, _⟩ => rfl | ⟨1, _⟩ => rfl | ⟨2, _⟩ => rfl
  rw [hi]
  unfold val_main_v18
  rw [Host.reduce_eq_fold_single FloatOps.maximumf _ _ reducesTo_S8x256x256x50_S8x256x256_d3 (by decide) h_S_]
  unfold peak
  refine congrArg (fun t => max t tiny) ?_
  refine Finset.fold_congr fun k _ => ?_
  exact (congrArg (val_main_v17 (F := Ideal) a0 a2) (lift_slot n h w _ k)).trans (nearness_at a0 a2 n h w k)

/-- The pixel's index with the unit slot axis appended, as the slot-wise broadcast reads it. -/
theorem bcast_slot (k : Fin 50) : idx_main_v22 (ix4 n h w k) = ix4 n h w (0 : Fin 1) := by
  funext a; match a with | ⟨0, _⟩ => rfl | ⟨1, _⟩ => rfl | ⟨2, _⟩ => rfl | ⟨3, _⟩ => rfl

/-- A slot's weight: the negated distance over σ is the distance times -1/σ, the spelt-out logistic is the logistic,
    and the quotient by γ is the product with 1/γ. -/
theorem weight_at (k : Fin 50) :
    val_main_v27 (F := Ideal) a0 a1 a2 (ix4 n h w k)
      = weight (depths a0 n h w) (dists a1 n h w) (faces a2 n h w) k := by
  rw [val_main_v27_apply, val_main_v12_apply, val_main_v11_apply, val_main_v10_apply, val_main_cst_1_apply,
    val_main_v9_apply, val_main_v8_apply, val_main_cst_0_apply, val_main_v7_apply, val_main_v6_apply,
    val_main_v5_apply, val_main_v3_apply, val_main_v4_apply, val_main_cst_apply, covered_at,
    val_main_v26_apply, val_main_v25_apply, val_main_v23_apply, val_main_v22_apply, bcast_slot, peak_at, nearness_at,
    val_main_v24_apply, val_main_cst_6_apply]
  simp only [Ideal.mulf_def, Ideal.hostDivf_def, Ideal.subf_def, Ideal.addf_def, Ideal.ofBits_def,
    Ideal.hostUnary_exp_def, Ideal.hostNegf_def, Ideal.negf_def]
  rw [neg_div_sigma]
  simp only [div_gamma, logistic_spelt]
  rfl

/-- The background's weight. -/
theorem backdrop_at :
    val_main_v34 (F := Ideal) a0 a2 (ix4 n h w 0) = backdrop (depths a0 n h w) (faces a2 n h w) := by
  rw [val_main_v34_apply, val_main_v32_apply, val_main_v31_apply, val_main_v29_apply, val_main_v28_apply,
    val_main_cst_7_apply, peak_at, val_main_v30_apply, val_main_cst_8_apply, val_main_v33_apply, val_main_cst_9_apply]
  simp only [Ideal.maximumf_def, Ideal.hostDivf_def, Ideal.subf_def, Ideal.ofBits_def, Ideal.hostUnary_exp_def, div_gamma]
  rfl

/-- The pixel's index with the unit slot axis dropped. -/
theorem drop_unit : idx_main_v36 (ix4 n h w (0 : Fin 1)) = ix3 n h w := by
  funext a; match a with | ⟨0, _⟩ => rfl | ⟨1, _⟩ => rfl | ⟨2, _⟩ => rfl
theorem drop_unit' : idx_main_v40 (ix4 n h w (0 : Fin 1)) = ix3 n h w := by
  funext a; match a with | ⟨0, _⟩ => rfl | ⟨1, _⟩ => rfl | ⟨2, _⟩ => rfl
/-- Slot k of the pixel, as the sums over the slot axis index it. -/
theorem sum_slot (k : Fin 50) : idx_main_v35 (ix3 n h w) k = ix4 n h w k := by
  funext a; match a with | ⟨0, _⟩ => rfl | ⟨1, _⟩ => rfl | ⟨2, _⟩ => rfl | ⟨3, _⟩ => rfl
theorem sum_slot' (k : Fin 50) : idx_main_v39 (ix3 n h w) k = ix4 n h w k := by
  funext a; match a with | ⟨0, _⟩ => rfl | ⟨1, _⟩ => rfl | ⟨2, _⟩ => rfl | ⟨3, _⟩ => rfl

/-- The sum of the weights plus the background's: the sum starts from 0. -/
theorem total_at :
    val_main_v37 (F := Ideal) a0 a1 a2 (ix4 n h w 0)
      = (∑ k : Fin 50, weight (depths a0 n h w) (dists a1 n h w) (faces a2 n h w) k) + backdrop (depths a0 n h w) (faces a2 n h w) := by
  rw [val_main_v37_apply, val_main_v36_apply, drop_unit, val_main_v35_apply, val_main_cst_10_apply, backdrop_at]
  simp only [sum_slot, weight_at, Ideal.addf_def, Ideal.ofBits_def, Ideal.ofBits_zero_f32, zero_add]

/-- The weighted sum of the depths plus the background's share. -/
theorem mixed_at :
    val_main_v43 (F := Ideal) a0 a1 a2 (ix4 n h w 0)
      = (∑ k : Fin 50, weight (depths a0 n h w) (dists a1 n h w) (faces a2 n h w) k * depths a0 n h w k)
        + backdrop (depths a0 n h w) (faces a2 n h w) * blue := by
  rw [val_main_v43_apply, val_main_v40_apply, drop_unit', val_main_v39_apply, val_main_cst_11_apply,
    val_main_v42_apply, backdrop_at, val_main_v41_apply, val_main_cst_12_apply]
  simp only [sum_slot', val_main_v38_apply, weight_at, Ideal.addf_def, Ideal.mulf_def, Ideal.ofBits_def,
    Ideal.ofBits_zero_f32, zero_add]

/-- The appended unit axis of the final reshape. -/
theorem append_unit : idx_main_v45 (ix3 n h w) = ix4 n h w (0 : Fin 1) := by
  have h0 : n.val < 8 := n.isLt
  have h1 : h.val < 256 := h.isLt
  have h2 : w.val < 256 := w.isLt
  funext a
  apply Fin.ext
  match a with
  | ⟨0, _⟩ => show ((n.val * 256 + h.val) * 256 + w.val) / 65536 = n.val; omega
  | ⟨1, _⟩ => show ((n.val * 256 + h.val) * 256 + w.val) / 256 % 256 = h.val; omega
  | ⟨2, _⟩ => show ((n.val * 256 + h.val) * 256 + w.val) / 1 % 256 = w.val; omega
  | ⟨3, _⟩ => rfl

/-- THE REFERENCE AT A PIXEL: the blend of the pixel's 50 slots. -/
theorem result_at :
    val_main_v45 (F := Ideal) a0 a1 a2 (ix3 n h w)
      = blend (depths a0 n h w) (dists a1 n h w) (faces a2 n h w) := by
  rw [val_main_v45_apply, append_unit, val_main_v44_apply, mixed_at, total_at]
  rfl

end Cert.ReferenceIdeal.PixelValue

end
-- ==== Proof.RefImage.lean ====
/-
  The reference's result array is the blended image: pixel by pixel it is the blend of the pixel's 50 slots.
-/
import proofs.«400057_j85796266705111_3_alg».proof.Proof.RefPixel
import proofs.«400057_j85796266705111_3_alg».proof.Proof.Image

noncomputable section

namespace Cert.ReferenceIdeal.PixelValue

open Cert.ReferenceIdeal Cert.ReferenceIdeal.Gen Cert.ReferenceIdeal.Read
open Idealize.ShloMosaic Idealize.ShloMosaic.ValueIdx Cert.DepthBlend

/-- THE REFERENCE'S RESULT: the blended image of its three arguments. -/
theorem result (a0 a1 : (⟨S8x256x256x50, .f32⟩ : BufTy).Contents (Elt Ideal)) (a2 : (⟨S8x256x256x50, .i32⟩ : BufTy).Contents (Elt Ideal)) :
    val_main_v45 (F := Ideal) a0 a1 a2 = image a0 a1 a2 := by
  funext i
  obtain ⟨n, h, w, rfl⟩ : ∃ (n : Fin 8) (h w : Fin 256), i = ix3 n h w := ⟨i 0, i 1, i 2, eq_ix3 i⟩
  rw [result_at, image_at]

end Cert.ReferenceIdeal.PixelValue

end
-- ==== Proof.lean ====
/-
  The soft depth blend of 8 images of 256 × 256 pixels with 50 slots each, as a grid of 64 blocks of 32 rows, against
  the same blend written with whole-array operations.

  Per pixel, with z the depths, x the signed distances and f the face indices of its 50 slots:
    c k = 1 if f k ≥ 0 else 0,  n k = (100 - z k) / 99 · c k,  p = max (max_k n k) ε,
    w k = logistic (-x k / σ) · c k · exp ((n k - p) / γ),  b = max (exp ((ε - p) / γ)) ε,
    value = (Σ_k w k · z k + b · 1) / (Σ_k w k + b),
  where σ = γ is the single-precision number nearest to 1/10000, the rational 13743895 / 2^37.

  The blocked program multiplies by the reciprocals 1/99, 1/γ and -1/σ where the whole-array program divides; the
  statement reads those three constants as the exact rationals 1/99, 2^37 / 13743895 and -2^37 / 13743895, and a
  quotient by a nonzero real is the product with its reciprocal on every extended real, so the two agree with no
  assumption on the inputs.  Everything else is the same operations in the same order: the maximum over the slots is a
  fold of max from -∞ on both sides, the sums over the slots are the same finite sums, and the logistic function is one
  function whether it is one operation or a negation, an exponential, a sum and a quotient.

  Pixel.lean states the per-pixel function and the identities; RefPixel.lean and RefImage.lean read the whole-array
  program at a pixel and as a whole; KernelPixel.lean reads the blocked program's body at a pixel of a block;
  KernelArray.lean puts the 64 blocks together and carries the result through the layout changes around the grid.
  The runs themselves (termination, no fault, arguments unchanged) are the generated modules'.
-/
import proofs.«400057_j85796266705111_3_alg».proof.Defs
import proofs.«400057_j85796266705111_3_alg».proof.Proof.Gen.Kernel
import proofs.«400057_j85796266705111_3_alg».proof.Proof.Gen.Kernel.Skeleton
import proofs.«400057_j85796266705111_3_alg».proof.Proof.Gen.Kernel.Launch
import proofs.«400057_j85796266705111_3_alg».proof.Proof.Gen.Kernel.Points
import proofs.«400057_j85796266705111_3_alg».proof.Proof.Gen.Kernel.Frame
import proofs.«400057_j85796266705111_3_alg».proof.Proof.Gen.KernelIdeal
import proofs.«400057_j85796266705111_3_alg».proof.Proof.Gen.KernelIdeal.Skeleton
import proofs.«400057_j85796266705111_3_alg».proof.Proof.Gen.KernelIdeal.Launch
import proofs.«400057_j85796266705111_3_alg».proof.Proof.Gen.KernelIdeal.Points
import proofs.«400057_j85796266705111_3_alg».proof.Proof.Gen.KernelIdeal.Frame
import proofs.«400057_j85796266705111_3_alg».proof.Proof.Gen.ReferenceIdeal
import proofs.«400057_j85796266705111_3_alg».proof.Proof.Gen.ReferenceIdeal.Run
import proofs.«400057_j85796266705111_3_alg».proof.Proof.Gen.ReferenceIdeal.Read
import proofs.«400057_j85796266705111_3_alg».proof.Proof.Gen.Pre_finite_inputs
import proofs.«400057_j85796266705111_3_alg».proof.Proof.KernelArray
import proofs.«400057_j85796266705111_3_alg».proof.Proof.RefImage
import Idealize.ShloMosaic.Adequacy
import Idealize.ShloMosaic.Init

noncomputable section

namespace Cert.Proof

open Idealize.ShloMosaic Idealize.SL.Sem

/-- The blocked program at the word level runs and leaves its arguments unchanged. -/
theorem frame_kernel : Cert.frame_Kernel := fun m ρ _ => Cert.Kernel.Gen.frame m ρ

/-- So does the blocked program over the extended reals. -/
theorem frame_kernel_ideal : Cert.frame_KernelIdeal := fun m ρ _ => Cert.KernelIdeal.Gen.frame m ρ

/-- The whole-array program runs and leaves its arguments unchanged: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The four named constants of the blocked program denote the rationals the table gives them:
    -1/σ, 1/99, and 1/γ at its two uses. -/
theorem preserves : Cert.preserves_Kernel_KernelIdeal :=
  ⟨IdealRules.named_const.statement Cert.KernelIdeal.κ "neg_inv_sigma" .f32 0xC61C4000#32 ((-137438953472 / 13743895 : ℝ) : EReal) rfl,
   IdealRules.named_const.statement Cert.KernelIdeal.κ "inv_99" .f32 0x3C257EB5#32 ((1 / 99 : ℝ) : EReal) rfl,
   IdealRules.named_const.statement Cert.KernelIdeal.κ "inv_gamma" .f32 0x461C4000#32 ((137438953472 / 13743895 : ℝ) : EReal) rfl,
   IdealRules.named_const.statement Cert.KernelIdeal.κ "inv_gamma" .f32 0x461C4000#32 ((137438953472 / 13743895 : ℝ) : EReal) rfl⟩

/-- From memories that agree on the three arguments both programs end with the blended image of those arguments. -/
theorem algebraic : Cert.algebraic_KernelIdeal_ReferenceIdeal := by
  intro m ρ m' ρ' _ hagree
  refine ⟨fun c => Cert.DepthBlend.image (Cert.KernelIdeal.ArrayValue.zarr m c) (Cert.KernelIdeal.ArrayValue.xarr m c)
      (Cert.KernelIdeal.ArrayValue.farr m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.PixelValue.result,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
